-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S1024x512 : Shape := ⟨2, ![1024, 512]⟩
abbrev S1024 : Shape := ⟨1, ![1024]⟩
abbrev S2048x1024 : Shape := ⟨2, ![2048, 1024]⟩
abbrev S2048 : Shape := ⟨1, ![2048]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S32768x512 .f32) (main_arg1 : FVec F S1024x512 .f32) (main_arg2 : FVec F S1024 .f32) (main_arg3 : FVec F S2048x1024 .f32) (main_arg4 : FVec F S2048 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_v13 main_v16
-- ==== Kernel.lean ====
abbrev S32768x512 : Shape := ⟨2, ![32768, 512]⟩
abbrev S1024x512 : Shape := ⟨2, ![1024, 512]⟩
abbrev S1024 : Shape := ⟨1, ![1024]⟩
abbrev S2048x1024 : Shape := ⟨2, ![2048, 1024]⟩
abbrev S2048 : Shape := ⟨1, ![2048]⟩
abbrev S1x1024 : Shape := ⟨2, ![1, 1024]⟩
abbrev S1x2048 : Shape := ⟨2, ![1, 2048]⟩
abbrev S32768 : Shape := ⟨1, ![32768]⟩
abbrev S1024x1024 : Shape := ⟨2, ![1024, 1024]⟩
abbrev S1024x2048 : Shape := ⟨2, ![1024, 2048]⟩

abbrev nBuf : Space → Nat
  | .hbm => 11
  | .vmem => 8
  | .smem => 0
  | _ => 0

abbrev bufTy : (tb : Table) → Fin (tcTables nBuf tb) → BufTy
  | .hbm, ⟨0, _⟩ => ⟨S32768x512, .f32⟩
  | .hbm, ⟨1, _⟩ => ⟨S1024x512, .f32⟩
  | .hbm, ⟨2, _⟩ => ⟨S1024, .f32⟩
  | .hbm, ⟨3, _⟩ => ⟨S2048x1024, .f32⟩
  | .hbm, ⟨4, _⟩ => ⟨S2048, .f32⟩
  | .hbm, ⟨5, _⟩ => ⟨S32768x512, .bf16⟩
  | .hbm, ⟨6, _⟩ => ⟨S1024x512, .bf16⟩
  | .hbm, ⟨7, _⟩ => ⟨S2048x1024, .bf16⟩
  | .hbm, ⟨8, _⟩ => ⟨S1x1024, .f32⟩
  | .hbm, ⟨9, _⟩ => ⟨S1x2048, .f32⟩
  | .hbm, ⟨10, _⟩ => ⟨S32768, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1x1024, .f32⟩
  | .local _ .vmem, ⟨4, _⟩ => ⟨S2048x1024, .bf16⟩
  | .local _ .vmem, ⟨5, _⟩ => ⟨S1x2048, .f32⟩
  | .local _ .vmem, ⟨6, _⟩ => ⟨S1024, .f32⟩
  | .local _ .vmem, ⟨7, _⟩ => ⟨S1024, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S1024_S1x1024 : S1024.ShapeCasts S1x1024
  shapeCasts_S2048_S1x2048 : S2048.ShapeCasts S1x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  reduces_S1024x2048_S1024 : S1024x2048.Reduces [1] S1024
  inb_S1024_S1024_0 : ∀ a, (![0] : Fin 1 → Nat) a + S1024.size a ≤ S1024.size a
  h_S1024 : 0 < S1024.numel
  dot_S1024x512_S1024x512_S1024x1024_1_1_0_0_n_n_wf : DotDims.WF S1024x512 S1024x512 S1024x1024 [1] [1] [0] [0] [] []
  dot_S1024x1024_S2048x1024_S1024x2048_1_1_0_0_n_n_wf : DotDims.WF S1024x1024 S2048x1024 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .bf16 = 32 ∨ (Rect.block (s := S32768x512) S1024x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .bf16 = 32 ∨ (Rect.block (s := S2048x1024) S2048x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S32768.size a
  hwx0_5 : ∀ i : grid0.Coords, EltTy.bits .f32 = 32 ∨ (Rect.block (s := S32768) S1024.size (cc0_transform_5 i) (hinb0_5 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x512 : Shape := ⟨2, ![32768, 512]⟩
abbrev S1024x512 : Shape := ⟨2, ![1024, 512]⟩
abbrev S1024 : Shape := ⟨1, ![1024]⟩
abbrev S2048x1024 : Shape := ⟨2, ![2048, 1024]⟩
abbrev S2048 : Shape := ⟨1, ![2048]⟩
abbrev S32768x1024 : Shape := ⟨2, ![32768, 1024]⟩
abbrev S1x1024 : Shape := ⟨2, ![1, 1024]⟩
abbrev S32768x2048 : Shape := ⟨2, ![32768, 2048]⟩
abbrev S1x2048 : Shape := ⟨2, ![1, 2048]⟩
abbrev S_ : Shape := ⟨0, ![]⟩
abbrev S32768 : Shape := ⟨1, ![32768]⟩

abbrev nBuf : Space → Nat
  | .hbm => 15
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S1024x512, .f32⟩
  | .hbm, ⟨2, _⟩ => ⟨S1024, .f32⟩
  | .hbm, ⟨3, _⟩ => ⟨S2048x1024, .f32⟩
  | .hbm, ⟨4, _⟩ => ⟨S2048, .f32⟩
  | .hbm, ⟨5, _⟩ => ⟨S32768x1024, .f32⟩
  | .hbm, ⟨6, _⟩ => ⟨S1x1024, .f32⟩
  | .hbm, ⟨7, _⟩ => ⟨S32768x1024, .f32⟩
  | .hbm, ⟨8, _⟩ => ⟨S32768x1024, .f32⟩
  | .hbm, ⟨9, _⟩ => ⟨S32768x2048, .f32⟩
  | .hbm, ⟨10, _⟩ => ⟨S1x2048, .f32⟩
  | .hbm, ⟨11, _⟩ => ⟨S32768x2048, .f32⟩
  | .hbm, ⟨12, _⟩ => ⟨S32768x2048, .f32⟩
  | .hbm, ⟨13, _⟩ => ⟨S_, .f32⟩
  | .hbm, ⟨14, _⟩ => ⟨S32768, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  reducesTo_S32768x2048_S32768_d1 : S32768x2048.ReducesTo [1] S32768
  h_S_ : 0 < S_.numel
  dot_S32768x512_S1024x512_S32768x1024_1_1_0_0_n_n_wf : DotDims.WF S32768x512 S1024x512 S32768x1024 [1] [1] [0] [0] [] []
  dot_S32768x1024_S2048x1024_S32768x2048_1_1_0_0_n_n_wf : DotDims.WF S32768x1024 S2048x1024 S32768x2048 [1] [1] [0] [0] [] []

variable [Facts₀]

def dot_S32768x512_S1024x512_S32768x1024_1_1_0_0_n_n : DotDims S32768x512 S1024x512 S32768x1024 where
  lhsContracting := [1]
  rhsContracting := [1]
  lhsNonContracting := [0]
  rhsNonContracting := [0]
  lhsBatch := []
  rhsBatch := []
  wf := dot_S32768x512_S1024x512_S32768x1024_1_1_0_0_n_n_wf
def dot_S32768x1024_S2048x1024_S32768x2048_1_1_0_0_n_n : DotDims S32768x1024 S2048x1024 S32768x2048 where
  lhsContracting := [1]
  rhsContracting := [1]
  lhsNonContracting := [0]
  rhsNonContracting := [0]
  lhsBatch := []
  rhsBatch := []
  wf := dot_S32768x1024_S2048x1024_S32768x2048_1_1_0_0_n_n_wf

class Facts : Prop extends Facts₀ where

variable [Facts]
-- ==== Proof.Spec.lean ====
/-
  The function both programs compute, written once over the argument arrays, entry by entry on the
  extended reals.

  For a batch row `b` the first layer gives, for each hidden unit `h`,
      hidden b h = (∑ i, x[b, i] · l1_w[h, i]) + l1_b[h],
  the second layer gives, for each output unit `o`,
      score b o = (∑ h, hidden b h · weight[o, h]) + bias[o],
  and the result at `b` is the maximum of `score b o` over the 2048 output units, taken as the fold of
  `max` from −∞ (the word 0xFF800000). No law beyond reading each operation at an index joins the two
  programs: both spell exactly these sums and this maximum, the kernel one block of 1024 batch rows at a
  time, the reference on the whole arrays.
-/
import Idealize.ShloMosaic.PureOps.Ideal
import Idealize.ShloMosaic.PureOps.Ideal.Laws
import Idealize.ShloMosaic.Lib.ValueIdx

noncomputable section

namespace Cert.TwoLayerMax

open Idealize.ShloMosaic Idealize.ShloMosaic.ValueIdx

/-- The argument arrays' index sets, as literal shapes. -/
abbrev SX : Shape := ⟨2, ![32768, 512]⟩
abbrev SW1 : Shape := ⟨2, ![1024, 512]⟩
abbrev SB1 : Shape := ⟨1, ![1024]⟩
abbrev SW2 : Shape := ⟨2, ![2048, 1024]⟩
abbrev SB2 : Shape := ⟨1, ![2048]⟩
abbrev SOut : Shape := ⟨1, ![32768]⟩

/-- −∞, as the word both programs start their maximum from. -/
abbrev negInf : EReal := Ideal.ofBits .f32 0xFF800000#32

/-- The first layer at batch row `b`, hidden unit `h`: the row of `x` against the row of `l1_w`, plus the bias. -/
def hidden (x : SX.Idx → EReal) (w1 : SW1.Idx → EReal) (b1 : SB1.Idx → EReal) (b : Fin 32768) (h : Fin 1024) : EReal :=
  (∑ i : Fin 512, x (ix2 b i) * w1 (ix2 h i)) + b1 (ix1 h)

/-- The second layer at batch row `b`, output unit `o`: the hidden row against the row of `weight`, plus the bias. -/
def score (x : SX.Idx → EReal) (w1 : SW1.Idx → EReal) (b1 : SB1.Idx → EReal) (w2 : SW2.Idx → EReal) (b2 : SB2.Idx → EReal)
    (b : Fin 32768) (o : Fin 2048) : EReal :=
  (∑ h : Fin 1024, hidden x w1 b1 b h * w2 (ix2 o h)) + b2 (ix1 o)

/-- The result: at batch row `b` the maximum of the scores over the output units, from −∞. -/
def rowMax (x : SX.Idx → EReal) (w1 : SW1.Idx → EReal) (b1 : SB1.Idx → EReal) (w2 : SW2.Idx → EReal) (b2 : SB2.Idx → EReal) :
    SOut.Idx → EReal :=
  fun j => (Finset.univ : Finset (Fin 2048)).fold max negInf (fun o => score x w1 b1 w2 b2 (j 0) o)

end Cert.TwoLayerMax

end
-- ==== Proof.KernelPayload.lean ====
/-
  What the kernel body computes on one block, entry by entry.

  The body takes a block of 1024 batch rows of `x` (narrowed to bf16, which changes nothing on the extended
  reals), the whole of `l1_w`, `l1_b` (as a one-row matrix), `weight` and `bias` (as a one-row matrix), and
  stores, for local row `r`, the maximum over the 2048 output units `o` of
      (∑ h, ((∑ i, x[r, i] · l1_w[h, i]) + l1_b[0, h]) · weight[o, h]) + bias[0, o].
  Each matrix product accumulates into zero, so it is the plain sum over the contracted axis; the bias rows are
  broadcast down the 1024 rows; the lane maximum starts from −∞.
-/
import proofs.«178886_j58918361366879_1_alg».proof.Proof.Gen.KernelIdeal.Skeleton
import proofs.«178886_j58918361366879_1_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

namespace Cert.KernelIdeal.BlockValue

open Cert.KernelIdeal Cert.KernelIdeal.Gen
open Idealize.ShloMosaic Idealize.ShloMosaic.ValueIdx Cert.TwoLayerMax

/-! ## The first product: a block of `x` against `l1_w`, contracted over the 512 input features -/

theorem lhs_first_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_first_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs_first_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_first_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- Entry `(r, h)` of the first product into zero: row `r` of the left block against row `h` of the right. -/
theorem firstProduct_apply (a : FVec Ideal S1024x512 .bf16) (b : FVec Ideal S1024x512 .bf16) (r h : Fin 1024) :
    matmul dot_S1024x512_S1024x512_S1024x1024_1_1_0_0_n_n none a b (constant S1024x1024 .f32 0x00000000#32) (ix2 r h)
      = ∑ k : Fin 512, a (ix2 r k) * b (ix2 h k) := by
  simp only [matmul]
  rw [Ideal.matmul_constant_zero_apply, ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 r h) ((ValueIdx.contrEquiv1 dot_S1024x512_S1024x512_S1024x1024_1_1_0_0_n_n 512 rfl rfl).symm k) = ix2 r k := funext fun a => Fin.ext (by
    match a with
    | ⟨0, _⟩ => exact lhs_first_0 _ _
    | ⟨1, _⟩ => exact (lhs_first_1 _ _).trans hk)
  have er : dot_S1024x512_S1024x512_S1024x1024_1_1_0_0_n_n.rhsIdx (ix2 r h) ((ValueIdx.contrEquiv1 dot_S1024x512_S1024x512_S1024x1024_1_1_0_0_n_n 512 rfl rfl).symm k) = ix2 h k := funext fun a => Fin.ext (by
    match a with
    | ⟨0, _⟩ => exact rhs_first_0 _ _
    | ⟨1, _⟩ => exact (rhs_first_1 _ _).trans hk)
  rw [el, er]

/-! ## The second product: the hidden block against `weight`, contracted over the 1024 hidden units -/

theorem lhs_second_0 (i : S1024x2048.Idx) (q : dot_S1024x1024_S2048x1024_S1024x2048_1_1_0_0_n_n.contr.Idx) :
    (dot_S1024x1024_S2048x1024_S1024x2048_1_1_0_0_n_n.lhsIdx i q 0).val = (i 0).val := by
  unfold DotDims.lhsIdx
  rw [dif_neg (show ¬(0 : Fin S1024x1024.rank) ∈ dot_S1024x1024_S2048x1024_S1024x2048_1_1_0_0_n_n.lhsBatch by decide), dif_pos (show (0 : Fin S1024x1024.rank) ∈ dot_S1024x1024_S2048x1024_S1024x2048_1_1_0_0_n_n.lhsNonContracting by decide)]
  rfl
theorem lhs_second_1 (i : S1024x2048.Idx) (q : dot_S1024x1024_S2048x1024_S1024x2048_1_1_0_0_n_n.contr.Idx) :
    (dot_S1024x1024_S2048x1024_S1024x2048_1_1_0_0_n_n.lhsIdx i q 1).val = (q ⟨0, by decide⟩).val :=
  dot_S1024x1024_S2048x1024_S1024x2048_1_1_0_0_n_n.lhsIdx_val_of_single rfl i q
theorem rhs_second_0 (i : S1024x2048.Idx) (q : dot_S1024x1024_S2048x1024_S1024x2048_1_1_0_0_n_n.contr.Idx) :
    (dot_S1024x1024_S2048x1024_S1024x2048_1_1_0_0_n_n.rhsIdx i q 0).val = (i 1).val := by
  unfold DotDims.rhsIdx
  rw [dif_neg (show ¬(0 : Fin S2048x1024.rank) ∈ dot_S1024x1024_S2048x1024_S1024x2048_1_1_0_0_n_n.rhsBatch by decide), dif_pos (show (0 : Fin S2048x1024.rank) ∈ dot_S1024x1024_S2048x1024_S1024x2048_1_1_0_0_n_n.rhsNonContracting by decide)]
  rfl
theorem rhs_second_1 (i : S1024x2048.Idx) (q : dot_S1024x1024_S2048x1024_S1024x2048_1_1_0_0_n_n.contr.Idx) :
    (dot_S1024x1024_S2048x1024_S1024x2048_1_1_0_0_n_n.rhsIdx i q 1).val = (q ⟨0, by decide⟩).val :=
  dot_S1024x1024_S2048x1024_S1024x2048_1_1_0_0_n_n.rhsIdx_val_of_single rfl i q

/-- Entry `(r, o)` of the second product into zero: row `r` of the left block against row `o` of the right. -/
theorem secondProduct_apply (a : FVec Ideal S1024x1024 .bf16) (b : FVec Ideal S2048x1024 .bf16) (r : Fin 1024) (o : Fin 2048) :
    matmul dot_S1024x1024_S2048x1024_S1024x2048_1_1_0_0_n_n none a b (constant S1024x2048 .f32 0x00000000#32) (ix2 r o)
      = ∑ k : Fin 1024, a (ix2 r k) * b (ix2 o k) := by
  simp only [matmul]
  rw [Ideal.matmul_constant_zero_apply, ← Equiv.sum_comp (ValueIdx.contrEquiv1 dot_S1024x1024_S2048x1024_S1024x2048_1_1_0_0_n_n 1024 rfl rfl).symm]
  refine Finset.sum_congr rfl fun k _ => ?_
  have hk := ValueIdx.contrEquiv1_symm_val dot_S1024x1024_S2048x1024_S1024x2048_1_1_0_0_n_n 1024 rfl rfl k
  have el : dot_S1024x1024_S2048x1024_S1024x2048_1_1_0_0_n_n.lhsIdx (ix2 r o) ((ValueIdx.contrEquiv1 dot_S1024x1024_S2048x1024_S1024x2048_1_1_0_0_n_n 1024 rfl rfl).symm k) = ix2 r k := funext fun a => Fin.ext (by
    match a with
    | ⟨0, _⟩ => exact lhs_second_0 _ _
    | ⟨1, _⟩ => exact (lhs_second_1 _ _).trans hk)
  have er : dot_S1024x1024_S2048x1024_S1024x2048_1_1_0_0_n_n.rhsIdx (ix2 r o) ((ValueIdx.contrEquiv1 dot_S1024x1024_S2048x1024_S1024x2048_1_1_0_0_n_n 1024 rfl rfl).symm k) = ix2 o k := funext fun a => Fin.ext (by
    match a with
    | ⟨0, _⟩ => exact rhs_second_0 _ _
    | ⟨1, _⟩ => exact (rhs_second_1 _ _).trans hk)
  rw [el, er]

/-! ## The bias rows broadcast down the block's rows -/

/-- The one-row hidden bias broadcast to the [1024, 1024] block reads the row at the column. -/
theorem hiddenBias_apply (v : FVec Ideal S1x1024 .f32) (r h : Fin 1024) :
    broadcastTo S1024x1024 v broadcasts_S1x1024_S1024x1024 (ix2 r h) = v (ix2 (0 : Fin 1) h) :=
  broadcastTo_apply v broadcasts_S1x1024_S1024x1024 (ix2 r h) (ix2 (0 : Fin 1) h) (fun a => match a with
    | ⟨0, _⟩ => by show (0 : Nat) = if (1 : Nat) = 1 then 0 else _; rw [if_pos rfl]
    | ⟨1, _⟩ => by show h.val = if (1024 : Nat) = 1 then 0 else h.val; rw [if_neg (by decide)])

/-- The one-row output bias broadcast to the [1024, 2048] block reads the row at the column. -/
theorem outputBias_apply (v : FVec Ideal S1x2048 .f32) (r : Fin 1024) (o : Fin 2048) :
    broadcastTo S1024x2048 v broadcasts_S1x2048_S1024x2048 (ix2 r o) = v (ix2 (0 : Fin 1) o) :=
  broadcastTo_apply v broadcasts_S1x2048_S1024x2048 (ix2 r o) (ix2 (0 : Fin 1) o) (fun a => match a with
    | ⟨0, _⟩ => by show (0 : Nat) = if (1 : Nat) = 1 then 0 else _; rw [if_pos rfl]
    | ⟨1, _⟩ => by show o.val = if (2048 : Nat) = 1 then 0 else o.val; rw [if_neg (by decide)])

/-! ## The lane maximum -/

/-- Local row `j` with output unit `o` inserted on the reduced axis is the block's score index `(j, o)`. -/
theorem lift_block (j : S1024.Idx) (o : Fin 2048) : reduces_S1024x2048_S1024.lift j o = ix2 (j 0) o :=
  funext fun a => Fin.ext (by match a with | ⟨0, _⟩ => rfl | ⟨1, _⟩ => rfl)

/-! ## The payload -/

/-- The block's score at `(r, o)`: the second product over the hidden row of `r`, plus the output bias. The
    narrowing of the hidden block to bf16 is the identity on the extended reals. -/
theorem scoreBlock_apply (x0 : FVec Ideal S1024x512 .bf16) (x1 : FVec Ideal S1024x512 .bf16) (x2 : FVec Ideal S1x1024 .f32)
    (x3 : FVec Ideal S2048x1024 .bf16) (x4 : FVec Ideal S1x2048 .f32) (r : Fin 1024) (o : Fin 2048)
    (i : S1024x2048.Idx) (hi : i = ix2 r o) :
    addf (F := Ideal)
        (matmul (F := Ideal) dot_S1024x1024_S2048x1024_S1024x2048_1_1_0_0_n_n none
          (truncf (F := Ideal) .bf16
            (addf (F := Ideal) (matmul (F := Ideal) dot_S1024x512_S1024x512_S1024x1024_1_1_0_0_n_n none x0 x1 (constant (F := Ideal) S1024x1024 .f32 0x00000000#32))
              (broadcastTo S1024x1024 x2 broadcasts_S1x1024_S1024x1024))
            bitsLt_bf16_f32)
          x3 (constant (F := Ideal) S1024x2048 .f32 0x00000000#32))
        (broadcastTo S1024x2048 x4 broadcasts_S1x2048_S1024x2048) i
      = (∑ h : Fin 1024, ((∑ k : Fin 512, x0 (ix2 r k) * x1 (ix2 h k)) + x2 (ix2 (0 : Fin 1) h)) * x3 (ix2 o h))
          + x4 (ix2 (0 : Fin 1) o) := by
  subst hi
  rw [addf_apply, secondProduct_apply, outputBias_apply]
  simp only [truncf_apply, addf_apply, firstProduct_apply, hiddenBias_apply]

/-- The block's stored value at local row `r`. -/
theorem pay_apply (x0 : Vec Ideal S1024x512 .bf16) (x1 : Vec Ideal S1024x512 .bf16) (x2 : Vec Ideal S1x1024 .f32)
    (x3 : Vec Ideal S2048x1024 .bf16) (x4 : Vec Ideal S1x2048 .f32) (r : Fin 1024) :
    k0_pay1 (F := Ideal) x0 x1 x2 x3 x4 (ix1 r)
      = (Finset.univ : Finset (Fin 2048)).fold max negInf (fun o =>
          (∑ h : Fin 1024, ((∑ k : Fin 512, x0 (ix2 r k) * x1 (ix2 h k)) + x2 (ix2 (0 : Fin 1) h)) * x3 (ix2 o h))
            + x4 (ix2 (0 : Fin 1) o)) := by
  unfold k0_pay1
  dsimp only
  simp only [shapeCast_self]
  refine (Ideal.multiReduction_maximumf_single _ _ reduces_S1024x2048_S1024 _ _ (ix1 r)).trans ?_
  refine congrArg₂ (fun (i : EReal) (f : Fin 2048 → EReal) => (Finset.univ : Finset (Fin 2048)).fold max i f) rfl
    (funext fun (o : Fin 2048) => ?_)
  exact scoreBlock_apply x0 x1 x2 x3 x4 r o _ (lift_block (ix1 r) o)

/-- A block whose rows are rows of the whole arrays computes those rows of `rowMax`: if local row `j` of the `x`
    block is batch row `i` of `X0`, and the other four blocks are the whole of `X1`, `X2` (as one row), `X3` and
    `X4` (as one row), the stored value at `j` is `rowMax` at `i`. -/
theorem block_row_eq (X0 : SX.Idx → EReal) (X1 : SW1.Idx → EReal) (X2 : SB1.Idx → EReal) (X3 : SW2.Idx → EReal) (X4 : SB2.Idx → EReal)
    (x0 : Vec Ideal S1024x512 .bf16) (x1 : Vec Ideal S1024x512 .bf16) (x2 : Vec Ideal S1x1024 .f32)
    (x3 : Vec Ideal S2048x1024 .bf16) (x4 : Vec Ideal S1x2048 .f32) (j : S1024.Idx) (i : SOut.Idx)
    (h0 : ∀ k : Fin 512, x0 (ix2 (j 0) k) = X0 (ix2 (i 0) k))
    (h1 : ∀ (h : Fin 1024) (k : Fin 512), x1 (ix2 h k) = X1 (ix2 h k))
    (h2 : ∀ h : Fin 1024, x2 (ix2 (0 : Fin 1) h) = X2 (ix1 h))
    (h3 : ∀ (o : Fin 2048) (h : Fin 1024), x3 (ix2 o h) = X3 (ix2 o h))
    (h4 : ∀ o : Fin 2048, x4 (ix2 (0 : Fin 1) o) = X4 (ix1 o)) :
    k0_pay1 (F := Ideal) x0 x1 x2 x3 x4 j = rowMax X0 X1 X2 X3 X4 i := by
  obtain ⟨r, rfl⟩ : ∃ r : Fin 1024, j = ix1 r := ⟨j 0, eq_ix1 j⟩
  rw [pay_apply]
  unfold rowMax score Cert.TwoLayerMax.hidden
  simp only [h0, h1, h2, h3, h4]

end Cert.KernelIdeal.BlockValue

end
-- ==== Proof.KernelValue.lean ====
/-
  From blocks to the whole array: after the kernel's run its result array is `rowMax` of the argument arrays.

  The grid has 32 points. Point `t` is handed rows `1024·t … 1024·t + 1023` of `x` and the whole of the other four
  arrays (their index maps are constant), and writes back rows `1024·t … 1024·t + 1023` of the result. The arrays the
  region finds are the arguments themselves on the extended reals: narrowing `x`, `l1_w` and `weight` to bf16 is
  the identity there, and the two bias vectors are only re-laid as one-row matrices. So what point `t` writes
  back is block `t` of `rowMax` of the arguments, the 32 blocks tile the 32768 rows (row `r` lies in block
  `r / 1024`), and the final array is `rowMax` everywhere.
-/
import proofs.«178886_j58918361366879_1_alg».proof.Proof.Gen.KernelIdeal.Value
import proofs.«178886_j58918361366879_1_alg».proof.Proof.KernelPayload
import Idealize.ShloMosaic.Lib.Pipeline.Value
import Idealize.ShloMosaic.Lib.StableHlo.Run
import Idealize.ShloMosaic.Lib.ValueIdx

noncomputable section

namespace Cert.KernelIdeal.ArrayValue

open Cert.KernelIdeal Cert.KernelIdeal.Gen Cert.KernelIdeal.Value Cert.KernelIdeal.BlockValue
open Idealize.ShloMosaic Idealize.ShloMosaic.TcCoe Idealize.SL.Sem Idealize.ShloMosaic.ValueIdx Cert.TwoLayerMax
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a; rfl

/-! ## The arrays the region finds -/

/-- `x` narrowed to bf16 is `x` on the extended reals. -/
theorem entry_x (c : Dev nD) : (V m c main_v0 : S32768x512.Idx → EReal) = m ((c : Thread nD τ).loc main_arg0) := by
  dsimp only [Gen.V, Gen.hostOps0]; after_results; rfl

/-- `l1_w` narrowed to bf16 is `l1_w`. -/
theorem entry_w1 (c : Dev nD) : (V m c main_v1 : S1024x512.Idx → EReal) = m ((c : Thread nD τ).loc main_arg1) := by
  dsimp only [Gen.V, Gen.hostOps0]; after_results; rfl

/-- `weight` narrowed to bf16 is `weight`. -/
theorem entry_w2 (c : Dev nD) : (V m c main_v2 : S2048x1024.Idx → EReal) = m ((c : Thread nD τ).loc main_arg3) := by
  dsimp only [Gen.V, Gen.hostOps0]; after_results; rfl

/-- `l1_b` re-laid as a one-row matrix holds `l1_b[h]` at `(0, h)`. -/
theorem entry_b1 (c : Dev nD) (h : Fin 1024) :
    (V m c main_v3 : S1x1024.Idx → EReal) (ix2 (0 : Fin 1) h) = (m ((c : Thread nD τ).loc main_arg2) : S1024.Idx → EReal) (ix1 h) := by
  have e : (V m c main_v3 : S1x1024.Idx → EReal) = shapeCast S1x1024 (m ((c : Thread nD τ).loc main_arg2) : S1024.Idx → EReal) shapeCasts_S1024_S1x1024 := by
    dsimp only [Gen.V, Gen.hostOps0]; after_results; rfl
  rw [e]
  refine shapeCast_apply (s := S1024) (t := S1x1024) _ shapeCasts_S1024_S1x1024 (ix2 (0 : Fin 1) h) (ix1 h) ?_
  rw [Shape.rowMajor_val_one, Shape.rowMajor_val_two]
  show h.val = 0 * 1024 + h.val
  omega

/-- `bias` re-laid as a one-row matrix holds `bias[o]` at `(0, o)`. -/
theorem entry_b2 (c : Dev nD) (o : Fin 2048) :
    (V m c main_v4 : S1x2048.Idx → EReal) (ix2 (0 : Fin 1) o) = (m ((c : Thread nD τ).loc main_arg4) : S2048.Idx → EReal) (ix1 o) := by
  have e : (V m c main_v4 : S1x2048.Idx → EReal) = shapeCast S1x2048 (m ((c : Thread nD τ).loc main_arg4) : S2048.Idx → EReal) shapeCasts_S2048_S1x2048 := by
    dsimp only [Gen.V, Gen.hostOps0]; after_results; rfl
  rw [e]
  refine shapeCast_apply (s := S2048) (t := S1x2048) _ shapeCasts_S2048_S1x2048 (ix2 (0 : Fin 1) o) (ix1 o) ?_
  rw [Shape.rowMajor_val_one, Shape.rowMajor_val_two]
  show o.val = 0 * 2048 + o.val
  omega

/-! ## The index maps, decided over the 32 points -/

/-- Window 0 (`x`) and the output window move with the point along the batch axis; the other four stay at block 0. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = t.val :=
  (by decide +kernel : ∀ t : Fin grid0.N, _)

/-! ## What a point writes back -/

/-- The result the kernel is shown to compute, on core `c`: `rowMax` of the five argument arrays. -/
abbrev result (c : Dev nD) : S32768.Idx → EReal :=
  rowMax (m ((c : Thread nD τ).loc main_arg0)) (m ((c : Thread nD τ).loc main_arg1)) (m ((c : Thread nD τ).loc main_arg2))
    (m ((c : Thread nD τ).loc main_arg3)) (m ((c : Thread nD τ).loc main_arg4))

/-- Point `t` writes back block `t` of `result`. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero zeros1]
  simp only [View.ld_unit_zero (S := S1024x512) zeros2, View.ld_unit_zero (S := S1x1024) zeros2,
    View.ld_unit_zero (S := S2048x1024) zeros2, View.ld_unit_zero (S := S1x2048) zeros2]
  obtain ⟨a00, a01, a10, a11, a20, a21, a30, a31, a40, a41, a50⟩ := index_facts t
  funext j
  show k0_pay1 (F := Ideal) (iblk m c 0 t) (iblk m c 1 t) (iblk m c 2 t) (iblk m c 3 t) (iblk m c 4 t) j
    = result m c (((cfg0.win 5).blk t).view.emb j)
  refine block_row_eq (m ((c : Thread nD τ).loc main_arg0)) (m ((c : Thread nD τ).loc main_arg1)) (m ((c : Thread nD τ).loc main_arg2))
    (m ((c : Thread nD τ).loc main_arg3)) (m ((c : Thread nD τ).loc main_arg4))
    (iblk m c 0 t) (iblk m c 1 t) (iblk m c 2 t) (iblk m c 3 t) (iblk m c 4 t) j (((cfg0.win 5).blk t).view.emb j) ?_ ?_ ?_ ?_ ?_
  · intro k
    show (V m c main_v0 : S32768x512.Idx → EReal) (((cfg0.win 0).blk t).view.emb (ix2 (j 0) k)) = _
    rw [entry_x]
    refine congrArg (m ((c : Thread nD τ).loc main_arg0) : S32768x512.Idx → EReal) (funext fun a => Fin.ext ?_)
    match a with
    | ⟨0, _⟩ => show win0_0.index t (0 : Fin 2) * 1024 + 1 * (j 0).val = win0_5.index t (0 : Fin 1) * 1024 + 1 * (j 0).val; omega
    | ⟨1, _⟩ => show win0_0.index t (1 : Fin 2) * 512 + 1 * k.val = k.val; omega
  · intro h k
    show (V m c main_v1 : S1024x512.Idx → EReal) (((cfg0.win 1).blk t).view.emb (ix2 h k)) = _
    rw [entry_w1]
    refine congrArg (m ((c : Thread nD τ).loc main_arg1) : S1024x512.Idx → EReal) (funext fun a => Fin.ext ?_)
    match a with
    | ⟨0, _⟩ => show win0_1.index t (0 : Fin 2) * 1024 + 1 * h.val = h.val; omega
    | ⟨1, _⟩ => show win0_1.index t (1 : Fin 2) * 512 + 1 * k.val = k.val; omega
  · intro h
    show (V m c main_v3 : S1x1024.Idx → EReal) (((cfg0.win 2).blk t).view.emb (ix2 (0 : Fin 1) h)) = _
    refine (congrArg (V m c main_v3 : S1x1024.Idx → EReal) (funext fun a => Fin.ext ?_)).trans (entry_b1 m c h)
    match a with
    | ⟨0, _⟩ => show win0_2.index t (0 : Fin 2) * 1 + 1 * 0 = 0; omega
    | ⟨1, _⟩ => show win0_2.index t (1 : Fin 2) * 1024 + 1 * h.val = h.val; omega
  · intro o h
    show (V m c main_v2 : S2048x1024.Idx → EReal) (((cfg0.win 3).blk t).view.emb (ix2 o h)) = _
    rw [entry_w2]
    refine congrArg (m ((c : Thread nD τ).loc main_arg3) : S2048x1024.Idx → EReal) (funext fun a => Fin.ext ?_)
    match a with
    | ⟨0, _⟩ => show win0_3.index t (0 : Fin 2) * 2048 + 1 * o.val = o.val; omega
    | ⟨1, _⟩ => show win0_3.index t (1 : Fin 2) * 1024 + 1 * h.val = h.val; omega
  · intro o
    show (V m c main_v4 : S1x2048.Idx → EReal) (((cfg0.win 4).blk t).view.emb (ix2 (0 : Fin 1) o)) = _
    refine (congrArg (V m c main_v4 : S1x2048.Idx → EReal) (funext fun a => Fin.ext ?_)).trans (entry_b2 m c o)
    match a with
    | ⟨0, _⟩ => show win0_4.index t (0 : Fin 2) * 1 + 1 * 0 = 0; omega
    | ⟨1, _⟩ => show win0_4.index t (1 : Fin 2) * 2048 + 1 * o.val = o.val; omega

/-! ## The blocks tile the result -/

/-- A result row is in point `t`'s block iff it lies in `1024·t … 1024·t + 1023`. -/
theorem mem_block (t : Fin cfg0.N) (i : S32768.Idx) :
    i ∈ ((cfg0.win 5).blk t).view.set ↔ ∀ a : Fin 1, win0_5.index t a * S1024.size a ≤ (i a).val ∧ (i a).val < win0_5.index t a * S1024.size a + S1024.size a := by
  show i ∈ ((View.whole main_v5).slice (win0_5.rect t)).set ↔ _
  rw [View.set_slice_whole, Rect.mem_set_unit]
  exact Iff.rfl

/-- Every result row is in the block of the point `row / 1024`, and every point writes back. -/
theorem covered (i : S32768.Idx) : ∃ t : Fin cfg0.N, (cfg0.win 5).flush t = true ∧ i ∈ ((cfg0.win 5).blk t).view.set := by
  have hi : (i 0).val < 32768 := (i 0).isLt
  have hN : cfg0.N = 32 := N_0
  refine ⟨⟨(i 0).val / 1024, by rw [hN]; omega⟩, flush0_5 _, ?_⟩
  rw [mem_block]
  obtain ⟨-, -, -, -, -, -, -, -, -, -, a50⟩ := index_facts ⟨(i 0).val / 1024, by rw [hN]; omega⟩
  intro a
  match a with
  | ⟨0, _⟩ =>
    show win0_5.index _ (0 : Fin 1) * 1024 ≤ (i 0).val ∧ (i 0).val < win0_5.index _ (0 : Fin 1) * 1024 + 1024
    rw [a50]
    show (i 0).val / 1024 * 1024 ≤ (i 0).val ∧ (i 0).val < (i 0).val / 1024 * 1024 + 1024
    omega

/-- So the result array ends holding `result`. -/
theorem final (c : Dev nD) : (dats m 0 c).arrAt 5 cfg0.N = result m c :=
  (dats m 0 c).arrAt_eq_of_cover 5 (result m c) (fun t _ => flushed_eq m c t) covered

/-! ## The run, read -/

/-- Every weakly fair execution of the kernel program ends with the result array at `rowMax` of the arguments and the
    arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.ArrayValue

end
-- ==== Proof.RefValue.lean ====
/-
  The reference's run, read entry by entry, is the specification `rowMax`.

  The reference forms `x · l1_wᵀ + l1_b` and `h · weightᵀ + bias` on the whole arrays and then reduces the
  [32768, 2048] scores over their second axis with `max` from −∞. Read at an index: a `dot_general` with one
  contracted axis is the sum over that axis of the products, the two-step broadcast of a bias vector reads the
  vector at the column, and the reduction over the second axis at batch row `b` is the fold of `max` over the
  2048 scores of row `b`.
-/
import proofs.«178886_j58918361366879_1_alg».proof.Proof.Gen.ReferenceIdeal.Read
import proofs.«178886_j58918361366879_1_alg».proof.Proof.Spec
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.TwoLayerMax

/-- The scores' second axis is the one reduced; the batch axis is kept. -/
theorem scoresReduce : S32768x2048.Reduces [1] S32768 := by decide

/-- Batch row `j` with output unit `o` inserted on the reduced axis is the score index `(j, o)`. -/
theorem lift_scores (j : S32768.Idx) (o : Fin 2048) : scoresReduce.lift j o = ix2 (j 0) o :=
  funext fun a => Fin.ext (by match a with | ⟨0, _⟩ => rfl | ⟨1, _⟩ => rfl)

/-- The reference's first layer at `(b, h)` is `hidden b h`. -/
theorem hidden_eq (x0 : SX.Idx → EReal) (x1 : SW1.Idx → EReal) (x2 : SB1.Idx → EReal) (b : Fin 32768) (h : Fin 1024) :
    val_main_v3 (F := Ideal) x0 x1 x2 (ix2 b h) = hidden x0 x1 x2 b h := by
  have el : ∀ k : Fin 512, lidx_main_v0 (ix2 b h) k = ix2 b k := fun k =>
    funext fun a => Fin.ext (by match a with | ⟨0, _⟩ => rfl | ⟨1, _⟩ => rfl)
  have er : ∀ k : Fin 512, ridx_main_v0 (ix2 b h) k = ix2 h k := fun k =>
    funext fun a => Fin.ext (by match a with | ⟨0, _⟩ => rfl | ⟨1, _⟩ => rfl)
  have eb : idx_main_v1 (idx_main_v2 (ix2 b h)) = ix1 h :=
    funext fun a => Fin.ext (by match a with | ⟨0, _⟩ => rfl)
  rw [val_main_v3_apply, val_main_v0_apply, val_main_v2_apply, val_main_v1_apply]
  simp only [el, er, eb, Ideal.addf_def]
  rfl

/-- The reference's second layer at `(b, o)` is `score b o`. -/
theorem score_eq (x0 : SX.Idx → EReal) (x1 : SW1.Idx → EReal) (x2 : SB1.Idx → EReal) (x3 : SW2.Idx → EReal) (x4 : SB2.Idx → EReal)
    (b : Fin 32768) (o : Fin 2048) :
    val_main_v7 (F := Ideal) x0 x1 x2 x3 x4 (ix2 b o) = score x0 x1 x2 x3 x4 b o := by
  have el : ∀ k : Fin 1024, lidx_main_v4 (ix2 b o) k = ix2 b k := fun k =>
    funext fun a => Fin.ext (by match a with | ⟨0, _⟩ => rfl | ⟨1, _⟩ => rfl)
  have er : ∀ k : Fin 1024, ridx_main_v4 (ix2 b o) k = ix2 o k := fun k =>
    funext fun a => Fin.ext (by match a with | ⟨0, _⟩ => rfl | ⟨1, _⟩ => rfl)
  have eb : idx_main_v5 (idx_main_v6 (ix2 b o)) = ix1 o :=
    funext fun a => Fin.ext (by match a with | ⟨0, _⟩ => rfl)
  rw [val_main_v7_apply, val_main_v4_apply, val_main_v6_apply, val_main_v5_apply]
  simp only [el, er, eb, hidden_eq, Ideal.addf_def]
  rfl

/-- The reference's result is `rowMax` of the arguments: its closing reduction folds `max` from −∞ over the
    scores of the row. -/
theorem result_eq (x0 : SX.Idx → EReal) (x1 : SW1.Idx → EReal) (x2 : SB1.Idx → EReal) (x3 : SW2.Idx → EReal) (x4 : SB2.Idx → EReal) :
    val_main_v8 (F := Ideal) x0 x1 x2 x3 x4 = rowMax x0 x1 x2 x3 x4 := by
  funext (j : S32768.Idx)
  unfold val_main_v8 rowMax
  rw [Host.reduce_eq_fold_single FloatOps.maximumf _ _ reducesTo_S32768x2048_S32768_d1 scoresReduce h_S_ j]
  refine congrArg₂ (fun (i : EReal) (f : Fin 2048 → EReal) => (Finset.univ : Finset (Fin 2048)).fold max i f) rfl
    (funext fun (o : Fin 2048) => ?_)
  exact (congrArg (val_main_v7 (F := Ideal) x0 x1 x2 x3 x4) (lift_scores j o)).trans (score_eq x0 x1 x2 x3 x4 (j 0) o)

end Cert.ReferenceIdeal.RefValue

end
-- ==== Proof.lean ====
/-
  A two-layer linear map followed by a row maximum: for a batch of 32768 rows,
      h = x · l1_wᵀ + l1_b,   scores = h · weightᵀ + bias,   result[b] = max over o of scores[b, o].

  The kernel computes it one block of 1024 batch rows at a time, with both weight matrices and both bias vectors
  resident, on operands narrowed to bf16; the reference computes it on the whole arrays in f32. On the extended reals a
  change of float format is the identity, a matrix product accumulated into zero is the plain sum over the contracted
  axis, and both maxima are the fold of `max` from −∞ over the 2048 output units, so the two programs spell one and the
  same function of the five argument arrays, `Cert.TwoLayerMax.rowMax` (Proof/Spec.lean). No algebraic law is needed
  to join them, and the precondition (finite inputs) is never opened: the equality holds at every extended real.

  Proof/KernelPayload.lean reads the kernel body's stored value at a local row; Proof/KernelValue.lean carries that
  from the 32 blocks to the whole result array; Proof/RefValue.lean reads the reference's run entry by entry. The
  three frames are the generated ones; the idealization rewrote nothing, so `preserves` is trivially true.
-/
import proofs.«178886_j58918361366879_1_alg».proof.Defs
import proofs.«178886_j58918361366879_1_alg».proof.Proof.Gen.Kernel
import proofs.«178886_j58918361366879_1_alg».proof.Proof.Gen.Kernel.Skeleton
import proofs.«178886_j58918361366879_1_alg».proof.Proof.Gen.Kernel.Launch
import proofs.«178886_j58918361366879_1_alg».proof.Proof.Gen.Kernel.Points
import proofs.«178886_j58918361366879_1_alg».proof.Proof.Gen.Kernel.Frame
import proofs.«178886_j58918361366879_1_alg».proof.Proof.Gen.KernelIdeal
import proofs.«178886_j58918361366879_1_alg».proof.Proof.Gen.KernelIdeal.Skeleton
import proofs.«178886_j58918361366879_1_alg».proof.Proof.Gen.KernelIdeal.Launch
import proofs.«178886_j58918361366879_1_alg».proof.Proof.Gen.KernelIdeal.Points
import proofs.«178886_j58918361366879_1_alg».proof.Proof.Gen.KernelIdeal.Frame
import proofs.«178886_j58918361366879_1_alg».proof.Proof.Gen.ReferenceIdeal
import proofs.«178886_j58918361366879_1_alg».proof.Proof.Gen.Pre_finite_inputs
import proofs.«178886_j58918361366879_1_alg».proof.Proof.Gen.KernelIdeal.Value
import proofs.«178886_j58918361366879_1_alg».proof.Proof.Gen.ReferenceIdeal.Run
import proofs.«178886_j58918361366879_1_alg».proof.Proof.Gen.ReferenceIdeal.Read
import proofs.«178886_j58918361366879_1_alg».proof.Proof.KernelValue
import proofs.«178886_j58918361366879_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with the result array at `rowMax` of those
    arguments: the kernel by its 32 blocks, the reference by its whole-array operations read at an index. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
